-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x40, .f32⟩
  | .hbm, ⟨87, _⟩ => ⟨S1700000x1, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x40, .f32⟩
  | .hbm, ⟨97, _⟩ => ⟨S1700000x40, .f32⟩
  | .hbm, ⟨98, _⟩ => ⟨S1700000x40, .f32⟩
  | .hbm, ⟨99, _⟩ => ⟨S_, .f32⟩
  | .hbm, ⟨100, _⟩ => ⟨S100000x40, .f32⟩
  | .hbm, ⟨101, _⟩ => ⟨S1700000x1, .i32⟩
  | .hbm, ⟨102, _⟩ => ⟨S100000x40, .f32⟩
  | .hbm, ⟨103, _⟩ => ⟨S1x40, .f32⟩
  | .hbm, ⟨104, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x40, .f32⟩
  | .hbm, ⟨95, _⟩ => ⟨S1700000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x40, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .hbm, ⟨113, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Before.lean ====
/-
  The graph's three arrays, before the first feature transform.
  Both programs open with the same host operations on the edge list E (2 × 1600000): the source row and the
  destination row each followed by the 100000 self-loops, the in-degree of every node as a scatter-add of ones
  over the destinations, its inverse square root where the degree is positive (else zero), and the edge weight
  norm(e) = dinv(src e) · dinv(dst e). The kernel's program runs them in three stretches; read back through the
  three, each of the arrays src, dst and norm is the reference's own stage of the same name, as a function of E
  alone. The dense arguments X and W₁ pass through the three stretches untouched.
-/
import proofs.«100734_j452_1_alg».proof.Proof.Gen.KernelIdeal.Frame
import proofs.«100734_j452_1_alg».proof.Proof.RefRead

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-- The edge list as launched. -/
abbrev edges : (⟨S2x1600000, .i32⟩ : BufTy).Contents (Elt F) := m ((c.tc : Thread nD τ).loc main_arg1)

/-- Sources followed by the self-loops. -/
theorem src_before : W3 m ρ c (Proc.devRef .tc main_v3) = val_main_v3 (F := F) (edges m c) := by
  show StableHlo.after hostOps0_2 (StableHlo.after hostOps0_1 (StableHlo.after hostOps0 (W0 m ρ c))) (Proc.devRef .tc main_v3) = _
  after_results
  rfl

/-- Destinations followed by the self-loops. -/
theorem dst_before : W3 m ρ c (Proc.devRef .tc main_v6) = val_main_v6 (F := F) (edges m c) := by
  show StableHlo.after hostOps0_2 (StableHlo.after hostOps0_1 (StableHlo.after hostOps0 (W0 m ρ c))) (Proc.devRef .tc main_v6) = _
  after_results
  rfl

/-! ### The weights, one stretch at a time

The degree is summed in the first stretch, where its positivity test and its inverse square root are also taken; the
second stretch selects between that root and zero; the third gathers the selected value at src and at dst and
multiplies the two. Each stretch is read at ANY contents `Wv` it may be entered with, from what `Wv` holds of the
stretch before. -/

/-- Sources followed by the self-loops, after the second stretch. -/
theorem src_mid : W2 m ρ c (Proc.devRef .tc main_v3) = val_main_v3 (F := F) (edges m c) := by
  show StableHlo.after hostOps0_1 (StableHlo.after hostOps0 (W0 m ρ c)) (Proc.devRef .tc main_v3) = _
  after_results
  rfl

/-- Destinations followed by the self-loops, after the second stretch. -/
theorem dst_mid : W2 m ρ c (Proc.devRef .tc main_v6) = val_main_v6 (F := F) (edges m c) := by
  show StableHlo.after hostOps0_1 (StableHlo.after hostOps0 (W0 m ρ c)) (Proc.devRef .tc main_v6) = _
  after_results
  rfl

/-- Where the in-degree (self-loop counted) is positive. -/
theorem positive_first : W1 m ρ c (Proc.devRef .tc main_v12) = val_main_v12 (F := F) (edges m c) := by
  show StableHlo.after hostOps0 (W0 m ρ c) (Proc.devRef .tc main_v12) = _
  after_results
  rfl

/-- The inverse square root of the in-degree. -/
theorem rsqrt_first : W1 m ρ c (Proc.devRef .tc main_v13) = val_main_v13 (F := F) (edges m c) := by
  show StableHlo.after hostOps0 (W0 m ρ c) (Proc.devRef .tc main_v13) = _
  after_results
  rfl

/-- The zero the selection falls back to, made at the end of the first stretch. -/
theorem zero_first : W1 m ρ c (Proc.devRef .tc main_cst_2) = val_main_cst_2 (F := F) := by
  show StableHlo.after hostOps0 (W0 m ρ c) (Proc.devRef .tc main_cst_2) = _
  after_results
  rfl

/-- The second stretch: the root where the degree is positive, zero elsewhere. -/
theorem select_stretch (Wv : Valuation τ sig (Elt F))
    (hp : Wv (Proc.devRef .tc main_v12) = val_main_v12 (F := F) (edges m c))
    (hr : Wv (Proc.devRef .tc main_v13) = val_main_v13 (F := F) (edges m c))
    (hz : Wv (Proc.devRef .tc main_cst_2) = val_main_cst_2 (F := F)) :
    StableHlo.after hostOps0_1 Wv (Proc.devRef .tc main_v14) = val_main_v14 (F := F) (edges m c) := by
  after_results_simp
  rw [hp, hr, hz]
  simp only [TRef.ofBuf, TRef.toBuf, cast_eq]
  rfl

/-- The third stretch: the selected value gathered at src and at dst, and the product of the two. -/
theorem weight_stretch (Wv : Valuation τ sig (Elt F))
    (hv : Wv (Proc.devRef .tc main_v14) = val_main_v14 (F := F) (edges m c))
    (hs : Wv (Proc.devRef .tc main_v3) = val_main_v3 (F := F) (edges m c))
    (hd : Wv (Proc.devRef .tc main_v6) = val_main_v6 (F := F) (edges m c)) :
    StableHlo.after hostOps0_2 Wv (Proc.devRef .tc main_v29) = val_main_v29 (F := F) (edges m c) := by
  after_results_simp
  rw [hv, hs, hd]
  rfl

/-- The symmetric normalisation's weight of every edge and self-loop. -/
theorem norm_before : W3 m ρ c (Proc.devRef .tc main_v29) = val_main_v29 (F := F) (edges m c) :=
  weight_stretch m c (W2 m ρ c)
    (select_stretch m c (W1 m ρ c) (positive_first m ρ c) (rsqrt_first m ρ c) (zero_first m ρ c)) (src_mid m ρ c) (dst_mid m ρ c)

/-- The node features reach the first product as launched. -/
theorem features_before : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results

/-- The first weight matrix reaches the first product as launched. -/
theorem weight1_before : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results

end Cert.Bridge

end
-- ==== Proof.Carry.lean ====
/-
  What crosses the six kernel regions and the three aggregation stretches unchanged.
  A region rewrites only its own output array, and an aggregation stretch writes only its own temporaries, its sum and
  its bias row; so the arrays src, dst and norm computed before the first product, and every dense argument not yet
  used, hold at each later boundary what they held at the one before. Each line below is one such step, and the
  closing theorems chain them from the boundary where an array is read back to where it was made.
-/
import proofs.«100734_j452_1_alg».proof.Proof.Gen.KernelIdeal.Frame
import proofs.«100734_j452_1_alg».proof.Proof.RefRead

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-! ## One step: across a region, across a stretch -/

/-! ### src -/
theorem src_step4 : W4 m ρ c (Proc.devRef .tc main_v3) = W3 m ρ c (Proc.devRef .tc main_v3) := W4_of_ne m ρ c main_v3 (by decide)
theorem src_step5 : W5 m ρ c (Proc.devRef .tc main_v3) = W4 m ρ c (Proc.devRef .tc main_v3) := by
  show StableHlo.after hostOps1 (W4 m ρ c) (Proc.devRef .tc main_v3) = _
  after_results_simp
theorem src_step6 : W6 m ρ c (Proc.devRef .tc main_v3) = W5 m ρ c (Proc.devRef .tc main_v3) := W6_of_ne m ρ c main_v3 (by decide)
theorem src_step7 : W7 m ρ c (Proc.devRef .tc main_v3) = W6 m ρ c (Proc.devRef .tc main_v3) := W7_of_ne m ρ c main_v3 (by decide)
theorem src_step8 : W8 m ρ c (Proc.devRef .tc main_v3) = W7 m ρ c (Proc.devRef .tc main_v3) := by
  show StableHlo.after hostOps3 (W7 m ρ c) (Proc.devRef .tc main_v3) = _
  after_results_simp
theorem src_step9 : W9 m ρ c (Proc.devRef .tc main_v3) = W8 m ρ c (Proc.devRef .tc main_v3) := W9_of_ne m ρ c main_v3 (by decide)
theorem src_step10 : W10 m ρ c (Proc.devRef .tc main_v3) = W9 m ρ c (Proc.devRef .tc main_v3) := W10_of_ne m ρ c main_v3 (by decide)
/-- src where the first aggregation reads it. -/
theorem src_at4 : W4 m ρ c (Proc.devRef .tc main_v3) = W3 m ρ c (Proc.devRef .tc main_v3) := src_step4 m ρ c
/-- src where the second aggregation reads it. -/
theorem src_at7 : W7 m ρ c (Proc.devRef .tc main_v3) = W3 m ρ c (Proc.devRef .tc main_v3) :=
  (src_step7 m ρ c).trans ((src_step6 m ρ c).trans ((src_step5 m ρ c).trans (src_step4 m ρ c)))
/-- src where the third aggregation reads it. -/
theorem src_at10 : W10 m ρ c (Proc.devRef .tc main_v3) = W3 m ρ c (Proc.devRef .tc main_v3) :=
  (src_step10 m ρ c).trans ((src_step9 m ρ c).trans ((src_step8 m ρ c).trans (src_at7 m ρ c)))

/-! ### dst -/
theorem dst_step4 : W4 m ρ c (Proc.devRef .tc main_v6) = W3 m ρ c (Proc.devRef .tc main_v6) := W4_of_ne m ρ c main_v6 (by decide)
theorem dst_step5 : W5 m ρ c (Proc.devRef .tc main_v6) = W4 m ρ c (Proc.devRef .tc main_v6) := by
  show StableHlo.after hostOps1 (W4 m ρ c) (Proc.devRef .tc main_v6) = _
  after_results_simp
theorem dst_step6 : W6 m ρ c (Proc.devRef .tc main_v6) = W5 m ρ c (Proc.devRef .tc main_v6) := W6_of_ne m ρ c main_v6 (by decide)
theorem dst_step7 : W7 m ρ c (Proc.devRef .tc main_v6) = W6 m ρ c (Proc.devRef .tc main_v6) := W7_of_ne m ρ c main_v6 (by decide)
theorem dst_step8 : W8 m ρ c (Proc.devRef .tc main_v6) = W7 m ρ c (Proc.devRef .tc main_v6) := by
  show StableHlo.after hostOps3 (W7 m ρ c) (Proc.devRef .tc main_v6) = _
  after_results_simp
theorem dst_step9 : W9 m ρ c (Proc.devRef .tc main_v6) = W8 m ρ c (Proc.devRef .tc main_v6) := W9_of_ne m ρ c main_v6 (by decide)
theorem dst_step10 : W10 m ρ c (Proc.devRef .tc main_v6) = W9 m ρ c (Proc.devRef .tc main_v6) := W10_of_ne m ρ c main_v6 (by decide)
/-- dst where the first aggregation reads it. -/
theorem dst_at4 : W4 m ρ c (Proc.devRef .tc main_v6) = W3 m ρ c (Proc.devRef .tc main_v6) := dst_step4 m ρ c
/-- dst where the second aggregation reads it. -/
theorem dst_at7 : W7 m ρ c (Proc.devRef .tc main_v6) = W3 m ρ c (Proc.devRef .tc main_v6) :=
  (dst_step7 m ρ c).trans ((dst_step6 m ρ c).trans ((dst_step5 m ρ c).trans (dst_step4 m ρ c)))
/-- dst where the third aggregation reads it. -/
theorem dst_at10 : W10 m ρ c (Proc.devRef .tc main_v6) = W3 m ρ c (Proc.devRef .tc main_v6) :=
  (dst_step10 m ρ c).trans ((dst_step9 m ρ c).trans ((dst_step8 m ρ c).trans (dst_at7 m ρ c)))

/-! ### norm -/
theorem norm_step4 : W4 m ρ c (Proc.devRef .tc main_v29) = W3 m ρ c (Proc.devRef .tc main_v29) := W4_of_ne m ρ c main_v29 (by decide)
theorem norm_step5 : W5 m ρ c (Proc.devRef .tc main_v29) = W4 m ρ c (Proc.devRef .tc main_v29) := by
  show StableHlo.after hostOps1 (W4 m ρ c) (Proc.devRef .tc main_v29) = _
  after_results_simp
theorem norm_step6 : W6 m ρ c (Proc.devRef .tc main_v29) = W5 m ρ c (Proc.devRef .tc main_v29) := W6_of_ne m ρ c main_v29 (by decide)
theorem norm_step7 : W7 m ρ c (Proc.devRef .tc main_v29) = W6 m ρ c (Proc.devRef .tc main_v29) := W7_of_ne m ρ c main_v29 (by decide)
theorem norm_step8 : W8 m ρ c (Proc.devRef .tc main_v29) = W7 m ρ c (Proc.devRef .tc main_v29) := by
  show StableHlo.after hostOps3 (W7 m ρ c) (Proc.devRef .tc main_v29) = _
  after_results_simp
theorem norm_step9 : W9 m ρ c (Proc.devRef .tc main_v29) = W8 m ρ c (Proc.devRef .tc main_v29) := W9_of_ne m ρ c main_v29 (by decide)
theorem norm_step10 : W10 m ρ c (Proc.devRef .tc main_v29) = W9 m ρ c (Proc.devRef .tc main_v29) := W10_of_ne m ρ c main_v29 (by decide)
/-- norm where the first aggregation reads it. -/
theorem norm_at4 : W4 m ρ c (Proc.devRef .tc main_v29) = W3 m ρ c (Proc.devRef .tc main_v29) := norm_step4 m ρ c
/-- norm where the second aggregation reads it. -/
theorem norm_at7 : W7 m ρ c (Proc.devRef .tc main_v29) = W3 m ρ c (Proc.devRef .tc main_v29) :=
  (norm_step7 m ρ c).trans ((norm_step6 m ρ c).trans ((norm_step5 m ρ c).trans (norm_step4 m ρ c)))
/-- norm where the third aggregation reads it. -/
theorem norm_at10 : W10 m ρ c (Proc.devRef .tc main_v29) = W3 m ρ c (Proc.devRef .tc main_v29) :=
  (norm_step10 m ρ c).trans ((norm_step9 m ρ c).trans ((norm_step8 m ρ c).trans (norm_at7 m ρ c)))

/-! ## The dense arguments used after the first product -/

/-! ### bias1 -/
theorem bias1_at3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results
theorem bias1_at4 : W4 m ρ c (Proc.devRef .tc main_arg3) = m ((c.tc : Thread nD τ).loc main_arg3) :=
  (W4_of_ne m ρ c main_arg3 (by decide)).trans (bias1_at3 m ρ c)

/-! ### weight2 -/
theorem weight2_at3 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results
theorem weight2_at4 : W4 m ρ c (Proc.devRef .tc main_arg4) = m ((c.tc : Thread nD τ).loc main_arg4) :=
  (W4_of_ne m ρ c main_arg4 (by decide)).trans (weight2_at3 m ρ c)
theorem weight2_at5 : W5 m ρ c (Proc.devRef .tc main_arg4) = m ((c.tc : Thread nD τ).loc main_arg4) := by
  refine Eq.trans ?_ (weight2_at4 m ρ c)
  show StableHlo.after hostOps1 (W4 m ρ c) (Proc.devRef .tc main_arg4) = _
  after_results_simp
theorem weight2_at6 : W6 m ρ c (Proc.devRef .tc main_arg4) = m ((c.tc : Thread nD τ).loc main_arg4) :=
  (W6_of_ne m ρ c main_arg4 (by decide)).trans (weight2_at5 m ρ c)

/-! ### bias2 -/
theorem bias2_at3 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results
theorem bias2_at4 : W4 m ρ c (Proc.devRef .tc main_arg5) = m ((c.tc : Thread nD τ).loc main_arg5) :=
  (W4_of_ne m ρ c main_arg5 (by decide)).trans (bias2_at3 m ρ c)
theorem bias2_at5 : W5 m ρ c (Proc.devRef .tc main_arg5) = m ((c.tc : Thread nD τ).loc main_arg5) := by
  refine Eq.trans ?_ (bias2_at4 m ρ c)
  show StableHlo.after hostOps1 (W4 m ρ c) (Proc.devRef .tc main_arg5) = _
  after_results_simp
theorem bias2_at6 : W6 m ρ c (Proc.devRef .tc main_arg5) = m ((c.tc : Thread nD τ).loc main_arg5) :=
  (W6_of_ne m ρ c main_arg5 (by decide)).trans (bias2_at5 m ρ c)
theorem bias2_at7 : W7 m ρ c (Proc.devRef .tc main_arg5) = m ((c.tc : Thread nD τ).loc main_arg5) :=
  (W7_of_ne m ρ c main_arg5 (by decide)).trans (bias2_at6 m ρ c)

/-! ### weight3 -/
theorem weight3_at3 : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results
theorem weight3_at4 : W4 m ρ c (Proc.devRef .tc main_arg6) = m ((c.tc : Thread nD τ).loc main_arg6) :=
  (W4_of_ne m ρ c main_arg6 (by decide)).trans (weight3_at3 m ρ c)
theorem weight3_at5 : W5 m ρ c (Proc.devRef .tc main_arg6) = m ((c.tc : Thread nD τ).loc main_arg6) := by
  refine Eq.trans ?_ (weight3_at4 m ρ c)
  show StableHlo.after hostOps1 (W4 m ρ c) (Proc.devRef .tc main_arg6) = _
  after_results_simp
theorem weight3_at6 : W6 m ρ c (Proc.devRef .tc main_arg6) = m ((c.tc : Thread nD τ).loc main_arg6) :=
  (W6_of_ne m ρ c main_arg6 (by decide)).trans (weight3_at5 m ρ c)
theorem weight3_at7 : W7 m ρ c (Proc.devRef .tc main_arg6) = m ((c.tc : Thread nD τ).loc main_arg6) :=
  (W7_of_ne m ρ c main_arg6 (by decide)).trans (weight3_at6 m ρ c)
theorem weight3_at8 : W8 m ρ c (Proc.devRef .tc main_arg6) = m ((c.tc : Thread nD τ).loc main_arg6) := by
  refine Eq.trans ?_ (weight3_at7 m ρ c)
  show StableHlo.after hostOps3 (W7 m ρ c) (Proc.devRef .tc main_arg6) = _
  after_results_simp
theorem weight3_at9 : W9 m ρ c (Proc.devRef .tc main_arg6) = m ((c.tc : Thread nD τ).loc main_arg6) :=
  (W9_of_ne m ρ c main_arg6 (by decide)).trans (weight3_at8 m ρ c)

/-! ### bias3 -/
theorem bias3_at3 : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results
theorem bias3_at4 : W4 m ρ c (Proc.devRef .tc main_arg7) = m ((c.tc : Thread nD τ).loc main_arg7) :=
  (W4_of_ne m ρ c main_arg7 (by decide)).trans (bias3_at3 m ρ c)
theorem bias3_at5 : W5 m ρ c (Proc.devRef .tc main_arg7) = m ((c.tc : Thread nD τ).loc main_arg7) := by
  refine Eq.trans ?_ (bias3_at4 m ρ c)
  show StableHlo.after hostOps1 (W4 m ρ c) (Proc.devRef .tc main_arg7) = _
  after_results_simp
theorem bias3_at6 : W6 m ρ c (Proc.devRef .tc main_arg7) = m ((c.tc : Thread nD τ).loc main_arg7) :=
  (W6_of_ne m ρ c main_arg7 (by decide)).trans (bias3_at5 m ρ c)
theorem bias3_at7 : W7 m ρ c (Proc.devRef .tc main_arg7) = m ((c.tc : Thread nD τ).loc main_arg7) :=
  (W7_of_ne m ρ c main_arg7 (by decide)).trans (bias3_at6 m ρ c)
theorem bias3_at8 : W8 m ρ c (Proc.devRef .tc main_arg7) = m ((c.tc : Thread nD τ).loc main_arg7) := by
  refine Eq.trans ?_ (bias3_at7 m ρ c)
  show StableHlo.after hostOps3 (W7 m ρ c) (Proc.devRef .tc main_arg7) = _
  after_results_simp
theorem bias3_at9 : W9 m ρ c (Proc.devRef .tc main_arg7) = m ((c.tc : Thread nD τ).loc main_arg7) :=
  (W9_of_ne m ρ c main_arg7 (by decide)).trans (bias3_at8 m ρ c)
theorem bias3_at10 : W10 m ρ c (Proc.devRef .tc main_arg7) = m ((c.tc : Thread nD τ).loc main_arg7) :=
  (W10_of_ne m ρ c main_arg7 (by decide)).trans (bias3_at9 m ρ c)

end Cert.Bridge

end
-- ==== Proof.Aggregate.lean ====
/-
  The three aggregations, each one host stretch between two kernel regions.
  With t the feature transform just computed (X·W₁, then h₁·W₂, then h₂·W₃), a stretch gathers the rows t[src e],
  scales row e by norm(e), and scatter-adds the scaled rows into a zero array at the rows dst e; it also lays the
  layer's bias out as a one-row array. Both programs spell this with the same operations, so if src, dst, norm and t
  hold the reference's stages when the stretch is entered, the sum it leaves is the reference's stage of the sum.
-/
import proofs.«100734_j452_1_alg».proof.Proof.Gen.KernelIdeal.Frame
import proofs.«100734_j452_1_alg».proof.Proof.RefRead

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-- Aggregation 1: the scatter-add over dst of norm · t[src], with t the transform of layer 1. -/
theorem aggregate1
    (hs : W4 m ρ c (Proc.devRef .tc main_v3) = val_main_v3 (F := F) (m ((c.tc : Thread nD τ).loc main_arg1)))
    (hd : W4 m ρ c (Proc.devRef .tc main_v6) = val_main_v6 (F := F) (m ((c.tc : Thread nD τ).loc main_arg1)))
    (hn : W4 m ρ c (Proc.devRef .tc main_v29) = val_main_v29 (F := F) (m ((c.tc : Thread nD τ).loc main_arg1)))
    (ht : W4 m ρ c (Proc.devRef .tc main_v30) = val_main_v30 (F := F) (m ((c.tc : Thread nD τ).loc main_arg0)) (m ((c.tc : Thread nD τ).loc main_arg2))) :
    W5 m ρ c (Proc.devRef .tc main_v43) = val_main_v43 (F := F) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results_simp
  rw [hs, hd, hn, ht]
  rfl

/-- Layer 1's bias as the one-row array the next region reads. -/
theorem biasRow1 : W5 m ρ c (Proc.devRef .tc main_v44) = shapeCast S1x64 (W4 m ρ c (Proc.devRef .tc main_arg3)) shapeCasts_S64_S1x64 := by
  show StableHlo.after hostOps1 (W4 m ρ c) (Proc.devRef .tc main_v44) = _
  after_results_simp
  rfl

/-- Aggregation 2: the scatter-add over dst of norm · t[src], with t the transform of layer 2. -/
theorem aggregate2
    (hs : W7 m ρ c (Proc.devRef .tc main_v3) = val_main_v3 (F := F) (m ((c.tc : Thread nD τ).loc main_arg1)))
    (hd : W7 m ρ c (Proc.devRef .tc main_v6) = val_main_v6 (F := F) (m ((c.tc : Thread nD τ).loc main_arg1)))
    (hn : W7 m ρ c (Proc.devRef .tc main_v29) = val_main_v29 (F := F) (m ((c.tc : Thread nD τ).loc main_arg1)))
    (ht : W7 m ρ c (Proc.devRef .tc main_v46) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W8 m ρ c (Proc.devRef .tc main_v59) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W7 m ρ c) (Proc.devRef .tc main_v59) = _
  after_results_simp
  rw [hs, hd, hn, ht]
  rfl

/-- Layer 2's bias as the one-row array the next region reads. -/
theorem biasRow2 : W8 m ρ c (Proc.devRef .tc main_v60) = shapeCast S1x64 (W7 m ρ c (Proc.devRef .tc main_arg5)) shapeCasts_S64_S1x64 := by
  show StableHlo.after hostOps3 (W7 m ρ c) (Proc.devRef .tc main_v60) = _
  after_results_simp
  rfl

/-- Aggregation 3: the scatter-add over dst of norm · t[src], with t the transform of layer 3. -/
theorem aggregate3
    (hs : W10 m ρ c (Proc.devRef .tc main_v3) = val_main_v3 (F := F) (m ((c.tc : Thread nD τ).loc main_arg1)))
    (hd : W10 m ρ c (Proc.devRef .tc main_v6) = val_main_v6 (F := F) (m ((c.tc : Thread nD τ).loc main_arg1)))
    (hn : W10 m ρ c (Proc.devRef .tc main_v29) = val_main_v29 (F := F) (m ((c.tc : Thread nD τ).loc main_arg1)))
    (ht : W10 m ρ c (Proc.devRef .tc main_v62) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    W11 m ρ c (Proc.devRef .tc main_v75) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps5 (W10 m ρ c) (Proc.devRef .tc main_v75) = _
  after_results_simp
  rw [hs, hd, hn, ht]
  rfl

/-- Layer 3's bias as the one-row array the next region reads. -/
theorem biasRow3 : W11 m ρ c (Proc.devRef .tc main_v76) = shapeCast S1x40 (W10 m ρ c (Proc.devRef .tc main_arg7)) shapeCasts_S40_S1x40 := by
  show StableHlo.after hostOps5 (W10 m ρ c) (Proc.devRef .tc main_v76) = _
  after_results_simp
  rfl

end Cert.Bridge

end
-- ==== Proof.Product0.lean ====
/-
  The first feature transform, X · W₁, as the tiled product leaves it in its output array.
  The grid has twenty points; point t multiplies rows 5000·t … 5000·t + 4999 of X (all 128 columns) by the whole of
  W₁ and writes the 5000 × 64 block of the same rows. Rounding the operands to bf16 is the identity on the
  extended reals and the accumulator starts at zero, so entry (r, q) of the block is the plain sum over k of
  X(5000·t + r, k) · W₁(k, q); the twenty blocks tile the 100000 rows, so the array ends holding the matrix product.
-/
import proofs.«100734_j452_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

/-- The entry of the left matrix that meets column `k` in row `i 0` of the product. -/
abbrev leftAt0 (i : S100000x64.Idx) (k : Fin 128) : S100000x128.Idx := fun a => match a with
  | ⟨0, _⟩ => ⟨(i 0).val, (i 0).isLt⟩
  | ⟨1, _⟩ => ⟨k.val, k.isLt⟩
/-- The entry of the right matrix that meets row `k` in column `i 1` of the product. -/
abbrev rightAt0 (i : S100000x64.Idx) (k : Fin 128) : S128x64.Idx := fun a => match a with
  | ⟨0, _⟩ => ⟨k.val, k.isLt⟩
  | ⟨1, _⟩ => ⟨(i 1).val, (i 1).isLt⟩

/-! ## One block of the product, entry by entry -/

/-- Along the rows (axis 0 of the left block, not contracted) the product's entry reads its own row. -/
theorem lhs_block0_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Along the columns of the left block (axis 1, the contracted one) it reads the summation index. -/
theorem lhs_block0_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- Along the rows of the right matrix (axis 0, the contracted one) it reads the summation index. -/
theorem rhs_block0_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- Along the columns of the right matrix (axis 1, not contracted) it reads its own column. -/
theorem rhs_block0_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Inside a block of rows: the entry of the left block that meets column `k` in row `j 0`. -/
abbrev leftInBlock0 (j : S5000x64.Idx) (k : Fin 128) : S5000x128.Idx := fun a => match a with
  | ⟨0, _⟩ => ⟨(j 0).val, (j 0).isLt⟩
  | ⟨1, _⟩ => ⟨k.val, k.isLt⟩
/-- Inside a block of rows: the entry of the right matrix that meets row `k` in column `j 1`. -/
abbrev rightInBlock0 (j : S5000x64.Idx) (k : Fin 128) : S128x64.Idx := fun a => match a with
  | ⟨0, _⟩ => ⟨k.val, k.isLt⟩
  | ⟨1, _⟩ => ⟨(j 1).val, (j 1).isLt⟩

/-- What the body computes from a block of rows `x0` and the right matrix `x1`, at entry `j` of the block: rounding to
    bf16 changes no extended real and the accumulator is the zero splat, so it is the plain sum over the 128 shared indices. -/
theorem block_product0_apply (x0 : FVec Ideal S5000x128 .f32) (x1 : FVec Ideal S128x64 .f32) (j : S5000x64.Idx) :
    k0_pay1 (F := Ideal) x0 x1 j = ∑ k : Fin 128, x0 (leftInBlock0 j k) * x1 (rightInBlock0 j k) := by
  unfold k0_pay1
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = leftInBlock0 j k := funext fun a => Fin.ext (by
    match a with
    | ⟨0, _⟩ => exact lhs_block0_0 _ _
    | ⟨1, _⟩ => exact (lhs_block0_1 _ _).trans hk)
  have er : dot_S5000x128_S128x64_S5000x64_1_0_0_1_n_n.rhsIdx j ((ValueIdx.contrEquiv1 dot_S5000x128_S128x64_S5000x64_1_0_0_1_n_n 128 rfl rfl).symm k) = rightInBlock0 j k := funext fun a => Fin.ext (by
    match a with
    | ⟨0, _⟩ => exact (rhs_block0_0 _ _).trans hk
    | ⟨1, _⟩ => exact rhs_block0_1 _ _)
  rw [ValueIdx.truncf_apply, ValueIdx.truncf_apply, el, er]

/-! ## From the twenty blocks to the array -/

/-- The body's one store and its two loads sit at offset zero of their buffers. -/
theorem zero_offsets0 : (![0, 0] : Fin 2 → Nat) = fun _ => 0 := funext fun a => by fin_cases a <;> rfl

/-- Entry `j` of the block computed from rows `5000·b …` of `X` (the block `x0`) and the whole of `Wt` (the block `x1`)
    is the product's entry `i`, where `i` is `j` moved down by `b` blocks of rows: the two sums run over the same
    entries of `X` and `Wt`. -/
theorem block_entry0 (X : FVec Ideal S100000x128 .f32) (Wt : FVec Ideal S128x64 .f32) (G : FVec Ideal S100000x64 .f32)
    (hG : ∀ i, G i = ∑ k : Fin 128, X (leftAt0 i k) * Wt (rightAt0 i k))
    (x0 : FVec Ideal S5000x128 .f32) (x1 : FVec Ideal S128x64 .f32) (b : Nat)
    (h0 : ∀ (y : S5000x128.Idx) (r : S100000x128.Idx), (r 0).val = b * 5000 + (y 0).val → (r 1).val = (y 1).val → x0 y = X r)
    (h1 : ∀ (y : S128x64.Idx) (r : S128x64.Idx), (r 0).val = (y 0).val → (r 1).val = (y 1).val → x1 y = Wt r)
    (j : S5000x64.Idx) (i : S100000x64.Idx) (hi0 : (i 0).val = b * 5000 + (j 0).val) (hi1 : (i 1).val = (j 1).val) :
    k0_pay1 (F := Ideal) x0 x1 j = G i := by
  rw [block_product0_apply, hG]
  refine Finset.sum_congr rfl fun k _ => ?_
  rw [h0 (leftInBlock0 j k) (leftAt0 i k) hi0 rfl, h1 (rightInBlock0 j k) (rightAt0 i k) rfl hi1]

/-- The block indices of the three windows, decided over the twenty points: the left window moves down the rows with the
    output window and stays at column block 0; the right window stays at its one block; the output has one column block. -/
theorem block_indices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the twenty blocks of rows is some point's output block. -/
theorem block_onto0 : ∀ q : Fin 20, ∃ t : Fin cfg0.N, win0_2.index t = ![q.val, 0] :=
  (by decide +kernel : ∀ q : Fin 20, ∃ t : Fin grid0.N, win0_2.index t = ![q.val, 0])

/-- What point `t` writes back is its block of rows of any `G` that is the matrix product entry by entry. -/
theorem written_back0 (V : (c : Dev nD) → (b : Ref sig .tc) → Buf (Elt Ideal) ((c : Thread nD τ).loc b)) (c : Dev nD)
    (X : FVec Ideal S100000x128 .f32) (Wt : FVec Ideal S128x64 .f32) (G : FVec Ideal S100000x64 .f32)
    (hX : V c (Pipeline.arrRef spec0 0) = X) (hW : V c (Pipeline.arrRef spec0 1) = Wt)
    (hG : ∀ i, G i = ∑ k : Fin 128, X (leftAt0 i k) * Wt (rightAt0 i k)) (t : Fin cfg0.N) :
    (dat0 (F := Ideal) V c).flushed 2 t = ((cfg0.win 2).blk t).view.read (Elt Ideal) G := by
  show (cfg0.win 2).cut (grid0.coords t) ((dat0 (F := Ideal) V c).after 2 t) = _
  rw [after0_2]
  unfold out0_2
  rw [View.canon_unit_zero zero_offsets0]
  simp only [View.ld_unit_zero (S := S5000x128) zero_offsets0, View.ld_unit_zero (S := S128x64) zero_offsets0]
  obtain ⟨e0, e1, e2, e3, e4⟩ := block_indices0 t
  funext j
  show k0_pay1 (F := Ideal) (iblk0 V c 0 t) (iblk0 V c 1 t) j = G (((cfg0.win 2).blk t).view.emb j)
  refine block_entry0 X Wt G hG _ _ (win0_2.index t (0 : Fin 2)) ?_ ?_ j _ ?_ ?_
  · intro y r hr0 hr1
    show V c (Pipeline.arrRef spec0 0) (((cfg0.win 0).blk t).view.emb y) = X r
    rw [hX]
    refine congrArg X (funext fun a => Fin.ext ?_)
    match a with
    | ⟨0, _⟩ => show win0_0.index t (0 : Fin 2) * 5000 + 1 * (y 0).val = (r 0).val; omega
    | ⟨1, _⟩ => show win0_0.index t (1 : Fin 2) * 128 + 1 * (y 1).val = (r 1).val; omega
  · intro y r hr0 hr1
    show V c (Pipeline.arrRef spec0 1) (((cfg0.win 1).blk t).view.emb y) = Wt r
    rw [hW]
    refine congrArg Wt (funext fun a => Fin.ext ?_)
    match a with
    | ⟨0, _⟩ => show win0_1.index t (0 : Fin 2) * 128 + 1 * (y 0).val = (r 0).val; omega
    | ⟨1, _⟩ => show win0_1.index t (1 : Fin 2) * 64 + 1 * (y 1).val = (r 1).val; omega
  · show win0_2.index t (0 : Fin 2) * 5000 + 1 * (j 0).val = win0_2.index t (0 : Fin 2) * 5000 + (j 0).val; omega
  · show win0_2.index t (1 : Fin 2) * 64 + 1 * (j 1).val = (j 1).val; omega

/-- An entry of the array is in point `t`'s output block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The twenty blocks tile the rows: entry `i` is in the block of the point whose row block is `(i 0) / 5000`. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- Whatever the buffers hold when the first product is entered (`V`), with `X` the left array and `Wt` the right one,
    the output array ends at any `G` that is their matrix product entry by entry. -/
theorem product0 (V : (c : Dev nD) → (b : Ref sig .tc) → Buf (Elt Ideal) ((c : Thread nD τ).loc b)) (c : Dev nD)
    (X : FVec Ideal S100000x128 .f32) (Wt : FVec Ideal S128x64 .f32) (G : FVec Ideal S100000x64 .f32)
    (hX : V c (Pipeline.arrRef spec0 0) = X) (hW : V c (Pipeline.arrRef spec0 1) = Wt)
    (hG : ∀ i, G i = ∑ k : Fin 128, X (leftAt0 i k) * Wt (rightAt0 i k)) :
    (dat0 (F := Ideal) V c).arrAt 2 cfg0.N = G :=
  (dat0 (F := Ideal) V c).arrAt_eq_of_cover 2 G (fun t _ => written_back0 V c X Wt G hX hW hG t) rows_covered0

end Cert.KernelIdeal.Regions

end
-- ==== Proof.Product2.lean ====
/-
  The second feature transform, h₁ · W₂, as the tiled product leaves it in its output array.
  The grid has twenty points; point t multiplies rows 5000·t … 5000·t + 4999 of h₁ (all 64 columns) by the whole of
  W₂ and writes the 5000 × 64 block of the same rows. Rounding the operands to bf16 is the identity on the
  extended reals and the accumulator starts at zero, so entry (r, q) of the block is the plain sum over the 64 shared indices k of
  h₁(5000·t + r, k) · W₂(k, q); the twenty blocks tile the 100000 rows, so the 100000 × 64 array ends holding the
  matrix product.
-/
import proofs.«100734_j452_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

/-- The entry of the left matrix that meets column `k` in row `i 0` of the product. -/
abbrev leftAt2 (i : S100000x64.Idx) (k : Fin 64) : S100000x64.Idx := fun a => match a with
  | ⟨0, _⟩ => ⟨(i 0).val, (i 0).isLt⟩
  | ⟨1, _⟩ => ⟨k.val, k.isLt⟩
/-- The entry of the right matrix that meets row `k` in column `i 1` of the product. -/
abbrev rightAt2 (i : S100000x64.Idx) (k : Fin 64) : S64x64.Idx := fun a => match a with
  | ⟨0, _⟩ => ⟨k.val, k.isLt⟩
  | ⟨1, _⟩ => ⟨(i 1).val, (i 1).isLt⟩

/-! ## One block of the product, entry by entry -/

/-- Along the rows (axis 0 of the left block, not contracted) the product's entry reads its own row. -/
theorem lhs_block2_0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Along the columns of the left block (axis 1, the contracted one) it reads the summation index. -/
theorem lhs_block2_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- Along the rows of the right matrix (axis 0, the contracted one) it reads the summation index. -/
theorem rhs_block2_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
/-- Along the columns of the right matrix (axis 1, not contracted) it reads its own column. -/
theorem rhs_block2_1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Inside a block of rows: the entry of the left block that meets column `k` in row `j 0`. -/
abbrev leftInBlock2 (j : S5000x64.Idx) (k : Fin 64) : S5000x64.Idx := fun a => match a with
  | ⟨0, _⟩ => ⟨(j 0).val, (j 0).isLt⟩
  | ⟨1, _⟩ => ⟨k.val, k.isLt⟩
/-- Inside a block of rows: the entry of the right matrix that meets row `k` in column `j 1`. -/
abbrev rightInBlock2 (j : S5000x64.Idx) (k : Fin 64) : S64x64.Idx := fun a => match a with
  | ⟨0, _⟩ => ⟨k.val, k.isLt⟩
  | ⟨1, _⟩ => ⟨(j 1).val, (j 1).isLt⟩

/-- What the body computes from a block of rows `x0` and the right matrix `x1`, at entry `j` of the block: rounding to
    bf16 changes no extended real and the accumulator is the zero splat, so it is the plain sum over the 64 shared indices. -/
theorem block_product2_apply (x0 : FVec Ideal S5000x64 .f32) (x1 : FVec Ideal S64x64 .f32) (j : S5000x64.Idx) :
    k2_pay1 (F := Ideal) x0 x1 j = ∑ k : Fin 64, x0 (leftInBlock2 j k) * x1 (rightInBlock2 j k) := by
  unfold k2_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = leftInBlock2 j k := funext fun a => Fin.ext (by
    match a with
    | ⟨0, _⟩ => exact lhs_block2_0 _ _
    | ⟨1, _⟩ => exact (lhs_block2_1 _ _).trans hk)
  have er : dot_S5000x64_S64x64_S5000x64_1_0_0_1_n_n.rhsIdx j ((ValueIdx.contrEquiv1 dot_S5000x64_S64x64_S5000x64_1_0_0_1_n_n 64 rfl rfl).symm k) = rightInBlock2 j k := funext fun a => Fin.ext (by
    match a with
    | ⟨0, _⟩ => exact (rhs_block2_0 _ _).trans hk
    | ⟨1, _⟩ => exact rhs_block2_1 _ _)
  rw [ValueIdx.truncf_apply, ValueIdx.truncf_apply, shapeCast_self, el, er]

/-! ## From the twenty blocks to the array -/

/-- The body's one store and its two loads sit at offset zero of their buffers. -/
theorem zero_offsets2 : (![0, 0] : Fin 2 → Nat) = fun _ => 0 := funext fun a => by fin_cases a <;> rfl

/-- Entry `j` of the block computed from rows `5000·b …` of `X` (the block `x0`) and the whole of `Wt` (the block `x1`)
    is the product's entry `i`, where `i` is `j` moved down by `b` blocks of rows: the two sums run over the same
    entries of `X` and `Wt`. -/
theorem block_entry2 (X : FVec Ideal S100000x64 .f32) (Wt : FVec Ideal S64x64 .f32) (G : FVec Ideal S100000x64 .f32)
    (hG : ∀ i, G i = ∑ k : Fin 64, X (leftAt2 i k) * Wt (rightAt2 i k))
    (x0 : FVec Ideal S5000x64 .f32) (x1 : FVec Ideal S64x64 .f32) (b : Nat)
    (h0 : ∀ (y : S5000x64.Idx) (r : S100000x64.Idx), (r 0).val = b * 5000 + (y 0).val → (r 1).val = (y 1).val → x0 y = X r)
    (h1 : ∀ (y : S64x64.Idx) (r : S64x64.Idx), (r 0).val = (y 0).val → (r 1).val = (y 1).val → x1 y = Wt r)
    (j : S5000x64.Idx) (i : S100000x64.Idx) (hi0 : (i 0).val = b * 5000 + (j 0).val) (hi1 : (i 1).val = (j 1).val) :
    k2_pay1 (F := Ideal) x0 x1 j = G i := by
  rw [block_product2_apply, hG]
  refine Finset.sum_congr rfl fun k _ => ?_
  rw [h0 (leftInBlock2 j k) (leftAt2 i k) hi0 rfl, h1 (rightInBlock2 j k) (rightAt2 i k) rfl hi1]

/-- The block indices of the three windows, decided over the twenty points: the left window moves down the rows with the
    output window and stays at column block 0; the right window stays at its one block; the output has one column block. -/
theorem block_indices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the twenty blocks of rows is some point's output block. -/
theorem block_onto2 : ∀ q : Fin 20, ∃ t : Fin cfg2.N, win2_2.index t = ![q.val, 0] :=
  (by decide +kernel : ∀ q : Fin 20, ∃ t : Fin grid2.N, win2_2.index t = ![q.val, 0])

/-- What point `t` writes back is its block of rows of any `G` that is the matrix product entry by entry. -/
theorem written_back2 (V : (c : Dev nD) → (b : Ref sig .tc) → Buf (Elt Ideal) ((c : Thread nD τ).loc b)) (c : Dev nD)
    (X : FVec Ideal S100000x64 .f32) (Wt : FVec Ideal S64x64 .f32) (G : FVec Ideal S100000x64 .f32)
    (hX : V c (Pipeline.arrRef spec2 0) = X) (hW : V c (Pipeline.arrRef spec2 1) = Wt)
    (hG : ∀ i, G i = ∑ k : Fin 64, X (leftAt2 i k) * Wt (rightAt2 i k)) (t : Fin cfg2.N) :
    (dat2 (F := Ideal) V c).flushed 2 t = ((cfg2.win 2).blk t).view.read (Elt Ideal) G := by
  show (cfg2.win 2).cut (grid2.coords t) ((dat2 (F := Ideal) V c).after 2 t) = _
  rw [after2_2]
  unfold out2_2
  rw [View.canon_unit_zero zero_offsets2]
  simp only [View.ld_unit_zero (S := S5000x64) zero_offsets2, View.ld_unit_zero (S := S64x64) zero_offsets2]
  obtain ⟨e0, e1, e2, e3, e4⟩ := block_indices2 t
  funext j
  show k2_pay1 (F := Ideal) (iblk2 V c 0 t) (iblk2 V c 1 t) j = G (((cfg2.win 2).blk t).view.emb j)
  refine block_entry2 X Wt G hG _ _ (win2_2.index t (0 : Fin 2)) ?_ ?_ j _ ?_ ?_
  · intro y r hr0 hr1
    show V c (Pipeline.arrRef spec2 0) (((cfg2.win 0).blk t).view.emb y) = X r
    rw [hX]
    refine congrArg X (funext fun a => Fin.ext ?_)
    match a with
    | ⟨0, _⟩ => show win2_0.index t (0 : Fin 2) * 5000 + 1 * (y 0).val = (r 0).val; omega
    | ⟨1, _⟩ => show win2_0.index t (1 : Fin 2) * 64 + 1 * (y 1).val = (r 1).val; omega
  · intro y r hr0 hr1
    show V c (Pipeline.arrRef spec2 1) (((cfg2.win 1).blk t).view.emb y) = Wt r
    rw [hW]
    refine congrArg Wt (funext fun a => Fin.ext ?_)
    match a with
    | ⟨0, _⟩ => show win2_1.index t (0 : Fin 2) * 64 + 1 * (y 0).val = (r 0).val; omega
    | ⟨1, _⟩ => show win2_1.index t (1 : Fin 2) * 64 + 1 * (y 1).val = (r 1).val; omega
  · show win2_2.index t (0 : Fin 2) * 5000 + 1 * (j 0).val = win2_2.index t (0 : Fin 2) * 5000 + (j 0).val; omega
  · show win2_2.index t (1 : Fin 2) * 64 + 1 * (j 1).val = (j 1).val; omega

/-- An entry of the array is in point `t`'s output block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The twenty blocks tile the rows: entry `i` is in the block of the point whose row block is `(i 0) / 5000`. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Whatever the buffers hold when the second product is entered (`V`), with `X` the left array and `Wt` the right one,
    the output array ends at any `G` that is their matrix product entry by entry. -/
theorem product2 (V : (c : Dev nD) → (b : Ref sig .tc) → Buf (Elt Ideal) ((c : Thread nD τ).loc b)) (c : Dev nD)
    (X : FVec Ideal S100000x64 .f32) (Wt : FVec Ideal S64x64 .f32) (G : FVec Ideal S100000x64 .f32)
    (hX : V c (Pipeline.arrRef spec2 0) = X) (hW : V c (Pipeline.arrRef spec2 1) = Wt)
    (hG : ∀ i, G i = ∑ k : Fin 64, X (leftAt2 i k) * Wt (rightAt2 i k)) :
    (dat2 (F := Ideal) V c).arrAt 2 cfg2.N = G :=
  (dat2 (F := Ideal) V c).arrAt_eq_of_cover 2 G (fun t _ => written_back2 V c X Wt G hX hW hG t) rows_covered2

end Cert.KernelIdeal.Regions

end
-- ==== Proof.Product4.lean ====
/-
  The third feature transform, h₂ · W₃, as the tiled product leaves it in its output array.
  The grid has twenty points; point t multiplies rows 5000·t … 5000·t + 4999 of h₂ (all 64 columns) by the whole of
  W₃ and writes the 5000 × 40 block of the same rows. Rounding the operands to bf16 is the identity on the
  extended reals and the accumulator starts at zero, so entry (r, q) of the block is the plain sum over the 64 shared indices k of
  h₂(5000·t + r, k) · W₃(k, q); the twenty blocks tile the 100000 rows, so the 100000 × 40 array ends holding the
  matrix product.
-/
import proofs.«100734_j452_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

/-- The entry of the left matrix that meets column `k` in row `i 0` of the product. -/
abbrev leftAt4 (i : S100000x40.Idx) (k : Fin 64) : S100000x64.Idx := fun a => match a with
  | ⟨0, _⟩ => ⟨(i 0).val, (i 0).isLt⟩
  | ⟨1, _⟩ => ⟨k.val, k.isLt⟩
/-- The entry of the right matrix that meets row `k` in column `i 1` of the product. -/
abbrev rightAt4 (i : S100000x40.Idx) (k : Fin 64) : S64x40.Idx := fun a => match a with
  | ⟨0, _⟩ => ⟨k.val, k.isLt⟩
  | ⟨1, _⟩ => ⟨(i 1).val, (i 1).isLt⟩

/-! ## One block of the product, entry by entry -/

/-- Along the rows (axis 0 of the left block, not contracted) the product's entry reads its own row. -/
theorem lhs_block4_0 (j : S5000x40.Idx) (q : dot_S5000x64_S64x40_S5000x40_1_0_0_1_n_n.contr.Idx) :
    (dot_S5000x64_S64x40_S5000x40_1_0_0_1_n_n.lhsIdx j q 0).val = (j 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- Along the columns of the left block (axis 1, the contracted one) it reads the summation index. -/
theorem lhs_block4_1 (j : S5000x40.Idx) (q : dot_S5000x64_S64x40_S5000x40_1_0_0_1_n_n.contr.Idx) :
    (dot_S5000x64_S64x40_S5000x40_1_0_0_1_n_n.lhsIdx j q 1).val = (q ⟨0, by decide⟩).val :=
  dot_S5000x64_S64x40_S5000x40_1_0_0_1_n_n.lhsIdx_val_of_single rfl j q
/-- Along the rows of the right matrix (axis 0, the contracted one) it reads the summation index. -/
theorem rhs_block4_0 (j : S5000x40.Idx) (q : dot_S5000x64_S64x40_S5000x40_1_0_0_1_n_n.contr.Idx) :
    (dot_S5000x64_S64x40_S5000x40_1_0_0_1_n_n.rhsIdx j q 0).val = (q ⟨0, by decide⟩).val :=
  dot_S5000x64_S64x40_S5000x40_1_0_0_1_n_n.rhsIdx_val_of_single rfl j q
/-- Along the columns of the right matrix (axis 1, not contracted) it reads its own column. -/
theorem rhs_block4_1 (j : S5000x40.Idx) (q : dot_S5000x64_S64x40_S5000x40_1_0_0_1_n_n.contr.Idx) :
    (dot_S5000x64_S64x40_S5000x40_1_0_0_1_n_n.rhsIdx j q 1).val = (j 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- Inside a block of rows: the entry of the left block that meets column `k` in row `j 0`. -/
abbrev leftInBlock4 (j : S5000x40.Idx) (k : Fin 64) : S5000x64.Idx := fun a => match a with
  | ⟨0, _⟩ => ⟨(j 0).val, (j 0).isLt⟩
  | ⟨1, _⟩ => ⟨k.val, k.isLt⟩
/-- Inside a block of rows: the entry of the right matrix that meets row `k` in column `j 1`. -/
abbrev rightInBlock4 (j : S5000x40.Idx) (k : Fin 64) : S64x40.Idx := fun a => match a with
  | ⟨0, _⟩ => ⟨k.val, k.isLt⟩
  | ⟨1, _⟩ => ⟨(j 1).val, (j 1).isLt⟩

/-- What the body computes from a block of rows `x0` and the right matrix `x1`, at entry `j` of the block: rounding to
    bf16 changes no extended real and the accumulator is the zero splat, so it is the plain sum over the 64 shared indices. -/
theorem block_product4_apply (x0 : FVec Ideal S5000x64 .f32) (x1 : FVec Ideal S64x40 .f32) (j : S5000x40.Idx) :
    k4_pay1 (F := Ideal) x0 x1 j = ∑ k : Fin 64, x0 (leftInBlock4 j k) * x1 (rightInBlock4 j k) := by
  unfold k4_pay1
  refine (Ideal.matmul_constant_zero_apply dot_S5000x64_S64x40_S5000x40_1_0_0_1_n_n none _ _ j).trans ?_
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx j ((ValueIdx.contrEquiv1 dot_S5000x64_S64x40_S5000x40_1_0_0_1_n_n 64 rfl rfl).symm k) = leftInBlock4 j k := funext fun a => Fin.ext (by
    match a with
    | ⟨0, _⟩ => exact lhs_block4_0 _ _
    | ⟨1, _⟩ => exact (lhs_block4_1 _ _).trans hk)
  have er : dot_S5000x64_S64x40_S5000x40_1_0_0_1_n_n.rhsIdx j ((ValueIdx.contrEquiv1 dot_S5000x64_S64x40_S5000x40_1_0_0_1_n_n 64 rfl rfl).symm k) = rightInBlock4 j k := funext fun a => Fin.ext (by
    match a with
    | ⟨0, _⟩ => exact (rhs_block4_0 _ _).trans hk
    | ⟨1, _⟩ => exact rhs_block4_1 _ _)
  rw [ValueIdx.truncf_apply, ValueIdx.truncf_apply, shapeCast_self, el, er]

/-! ## From the twenty blocks to the array -/

/-- The body's one store and its two loads sit at offset zero of their buffers. -/
theorem zero_offsets4 : (![0, 0] : Fin 2 → Nat) = fun _ => 0 := funext fun a => by fin_cases a <;> rfl

/-- Entry `j` of the block computed from rows `5000·b …` of `X` (the block `x0`) and the whole of `Wt` (the block `x1`)
    is the product's entry `i`, where `i` is `j` moved down by `b` blocks of rows: the two sums run over the same
    entries of `X` and `Wt`. -/
theorem block_entry4 (X : FVec Ideal S100000x64 .f32) (Wt : FVec Ideal S64x40 .f32) (G : FVec Ideal S100000x40 .f32)
    (hG : ∀ i, G i = ∑ k : Fin 64, X (leftAt4 i k) * Wt (rightAt4 i k))
    (x0 : FVec Ideal S5000x64 .f32) (x1 : FVec Ideal S64x40 .f32) (b : Nat)
    (h0 : ∀ (y : S5000x64.Idx) (r : S100000x64.Idx), (r 0).val = b * 5000 + (y 0).val → (r 1).val = (y 1).val → x0 y = X r)
    (h1 : ∀ (y : S64x40.Idx) (r : S64x40.Idx), (r 0).val = (y 0).val → (r 1).val = (y 1).val → x1 y = Wt r)
    (j : S5000x40.Idx) (i : S100000x40.Idx) (hi0 : (i 0).val = b * 5000 + (j 0).val) (hi1 : (i 1).val = (j 1).val) :
    k4_pay1 (F := Ideal) x0 x1 j = G i := by
  rw [block_product4_apply, hG]
  refine Finset.sum_congr rfl fun k _ => ?_
  rw [h0 (leftInBlock4 j k) (leftAt4 i k) hi0 rfl, h1 (rightInBlock4 j k) (rightAt4 i k) rfl hi1]

/-- The block indices of the three windows, decided over the twenty points: the left window moves down the rows with the
    output window and stays at column block 0; the right window stays at its one block; the output has one column block. -/
theorem block_indices4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the twenty blocks of rows is some point's output block. -/
theorem block_onto4 : ∀ q : Fin 20, ∃ t : Fin cfg4.N, win4_2.index t = ![q.val, 0] :=
  (by decide +kernel : ∀ q : Fin 20, ∃ t : Fin grid4.N, win4_2.index t = ![q.val, 0])

/-- What point `t` writes back is its block of rows of any `G` that is the matrix product entry by entry. -/
theorem written_back4 (V : (c : Dev nD) → (b : Ref sig .tc) → Buf (Elt Ideal) ((c : Thread nD τ).loc b)) (c : Dev nD)
    (X : FVec Ideal S100000x64 .f32) (Wt : FVec Ideal S64x40 .f32) (G : FVec Ideal S100000x40 .f32)
    (hX : V c (Pipeline.arrRef spec4 0) = X) (hW : V c (Pipeline.arrRef spec4 1) = Wt)
    (hG : ∀ i, G i = ∑ k : Fin 64, X (leftAt4 i k) * Wt (rightAt4 i k)) (t : Fin cfg4.N) :
    (dat4 (F := Ideal) V c).flushed 2 t = ((cfg4.win 2).blk t).view.read (Elt Ideal) G := by
  show (cfg4.win 2).cut (grid4.coords t) ((dat4 (F := Ideal) V c).after 2 t) = _
  rw [after4_2]
  unfold out4_2
  rw [View.canon_unit_zero zero_offsets4]
  simp only [View.ld_unit_zero (S := S5000x64) zero_offsets4, View.ld_unit_zero (S := S64x40) zero_offsets4]
  obtain ⟨e0, e1, e2, e3, e4⟩ := block_indices4 t
  funext j
  show k4_pay1 (F := Ideal) (iblk4 V c 0 t) (iblk4 V c 1 t) j = G (((cfg4.win 2).blk t).view.emb j)
  refine block_entry4 X Wt G hG _ _ (win4_2.index t (0 : Fin 2)) ?_ ?_ j _ ?_ ?_
  · intro y r hr0 hr1
    show V c (Pipeline.arrRef spec4 0) (((cfg4.win 0).blk t).view.emb y) = X r
    rw [hX]
    refine congrArg X (funext fun a => Fin.ext ?_)
    match a with
    | ⟨0, _⟩ => show win4_0.index t (0 : Fin 2) * 5000 + 1 * (y 0).val = (r 0).val; omega
    | ⟨1, _⟩ => show win4_0.index t (1 : Fin 2) * 64 + 1 * (y 1).val = (r 1).val; omega
  · intro y r hr0 hr1
    show V c (Pipeline.arrRef spec4 1) (((cfg4.win 1).blk t).view.emb y) = Wt r
    rw [hW]
    refine congrArg Wt (funext fun a => Fin.ext ?_)
    match a with
    | ⟨0, _⟩ => show win4_1.index t (0 : Fin 2) * 64 + 1 * (y 0).val = (r 0).val; omega
    | ⟨1, _⟩ => show win4_1.index t (1 : Fin 2) * 40 + 1 * (y 1).val = (r 1).val; omega
  · show win4_2.index t (0 : Fin 2) * 5000 + 1 * (j 0).val = win4_2.index t (0 : Fin 2) * 5000 + (j 0).val; omega
  · show win4_2.index t (1 : Fin 2) * 40 + 1 * (j 1).val = (j 1).val; omega

/-- An entry of the array is in point `t`'s output block iff each coordinate is in the block's range on its axis. -/
theorem mem_block4 (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v62).slice (win4_2.rect t)).set ↔ _
  rw [View.set_slice_whole, Rect.mem_set_unit]
  exact Iff.rfl

/-- The twenty blocks tile the rows: entry `i` is in the block of the point whose row block is `(i 0) / 5000`. -/
theorem rows_covered4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, ht⟩ := block_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 40 ≤ (i 1).val ∧ (i 1).val < win4_2.index t (1 : Fin 2) * 40 + 40; omega

/-- Whatever the buffers hold when the third product is entered (`V`), with `X` the left array and `Wt` the right one,
    the output array ends at any `G` that is their matrix product entry by entry. -/
theorem product4 (V : (c : Dev nD) → (b : Ref sig .tc) → Buf (Elt Ideal) ((c : Thread nD τ).loc b)) (c : Dev nD)
    (X : FVec Ideal S100000x64 .f32) (Wt : FVec Ideal S64x40 .f32) (G : FVec Ideal S100000x40 .f32)
    (hX : V c (Pipeline.arrRef spec4 0) = X) (hW : V c (Pipeline.arrRef spec4 1) = Wt)
    (hG : ∀ i, G i = ∑ k : Fin 64, X (leftAt4 i k) * Wt (rightAt4 i k)) :
    (dat4 (F := Ideal) V c).arrAt 2 cfg4.N = G :=
  (dat4 (F := Ideal) V c).arrAt_eq_of_cover 2 G (fun t _ => written_back4 V c X Wt G hX hW hG t) rows_covered4

end Cert.KernelIdeal.Regions

end
-- ==== Proof.BiasRelu1.lean ====
/-
  The first bias-and-rectify pass: out(r, q) = max(A(r, q) + b(q), 0), as the tiled pass leaves it in its output array.
  Point t of the twenty reads rows 5000·t … 5000·t + 4999 of A and the one-row array B = b (its single block at every
  point), broadcasts the row down the block, adds, takes the maximum with zero and writes the block of the same rows;
  the blocks tile the 100000 rows.
-/
import proofs.«100734_j452_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

/-- The entry of the one-row bias array under column `i 1`. -/
abbrev biasAt1 (i : S100000x64.Idx) : S1x64.Idx := fun a => match a with
  | ⟨0, _⟩ => ⟨0, Nat.one_pos⟩
  | ⟨1, _⟩ => ⟨(i 1).val, (i 1).isLt⟩

open Idealize.ShloMosaic.ValueIdx

/-- The two zero offsets of a whole-block access, spelt as the constant function. -/
theorem zeroOffsets1 : (![0, 0] : Fin 2 → Nat) = fun _ => 0 := funext fun a => by fin_cases a <;> rfl

/-- The block indices of the three windows at point `t`: the block read of `A` and the block written are block `t` of
    the rows and block 0 of the columns; the bias is its one block at every point. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array the pass is to leave, as one function of `A` and the bias row. Its entry at row r, column q is
    the larger of zero and
    the entry of `A` plus the bias under column q. -/
abbrev target1 (A : FVec Ideal S100000x64 .f32) (B : FVec Ideal S1x64 .f32) : FVec Ideal S100000x64 .f32 := fun i =>
  max (
    A i + B (biasAt1 i)
  ) (Ideal.ofBits .f32 0x00000000#32)

/-- The body's payload at row `p`, column `q` of a block `x0` with the bias row `x1`: the two identity casts and the
    cast of the row drop out, the row broadcast down the block reads the row's entry under the same column. -/
theorem payload1_apply (x0 : FVec Ideal S5000x64 .f32) (x1 : FVec Ideal S1x64 .f32) (p : Fin 5000) (q : Fin 64) :
    k1_pay1 x0 x1 (ix2 p q) =
      max (
        x0 (ix2 p q) + x1 (ix2 (0 : Fin 1) q)
      ) (Ideal.ofBits .f32 0x00000000#32)
    := by
  unfold k1_pay1
  rw [maximumf_apply]
  rw [broadcast_apply]
  rw [addf_apply, shapeCast_self, shapeCast_self, shapeCast_self, broadcastTo_1b_ab_apply]
  rfl

/-- One entry of what a point writes, over a block `x0` and a row `x1`: where the block's entry `j` is `A`'s entry `i`,
    the row is `B`, and `j` and `i` are in the same column, the payload's entry `j` is the target's entry `i`. -/
theorem payload1_eq_target (A : FVec Ideal S100000x64 .f32) (B : FVec Ideal S1x64 .f32)
    (x0 : FVec Ideal S5000x64 .f32) (x1 : FVec Ideal S1x64 .f32) (j : S5000x64.Idx) (i : S100000x64.Idx)
    (h0 : x0 j = A i) (h1 : ∀ y, x1 y = B y) (hcol : (i 1).val = (j 1).val) :
    k1_pay1 x0 x1 j = target1 A B i := by
  obtain ⟨p, q, rfl⟩ : ∃ (p : Fin 5000) (q : Fin 64), j = ix2 p q := ⟨j 0, j 1, eq_ix2 j⟩
  have hb : (ix2 (0 : Fin 1) q : S1x64.Idx) = biasAt1 i := by
    funext a
    match a with
    | ⟨0, _⟩ => rfl
    | ⟨1, _⟩ => exact Fin.ext hcol.symm
  rw [payload1_apply, h0, h1, hb]

/-- WHAT POINT `t` WRITES BACK is block `t` of the target: rows 5000·t … 5000·t + 4999, every column. -/
theorem flushed1_eq (V : (c : Dev nD) → (b : Ref sig .tc) → Buf (Elt Ideal) ((c : Thread nD τ).loc b)) (c : Dev nD)
    (A : FVec Ideal S100000x64 .f32) (B : FVec Ideal S1x64 .f32)
    (hA : V c (Pipeline.arrRef spec1 0) = A) (hB : V c (Pipeline.arrRef spec1 1) = B) (t : Fin cfg1.N) :
    (dat1 (F := Ideal) V c).flushed 2 t = ((cfg1.win 2).blk t).view.read (Elt Ideal) (target1 A B) := by
  show (cfg1.win 2).cut (grid1.coords t) ((dat1 V c).after 2 t) = _
  rw [after1_2]
  unfold out1_2
  rw [View.canon_unit_zero zeroOffsets1]
  simp only [View.ld_unit_zero (S := S5000x64) zeroOffsets1, View.ld_unit_zero (S := S1x64) zeroOffsets1]
  obtain ⟨e00, e01, e10, e11, e20, e21⟩ := blockIndex1 t
  funext j
  show k1_pay1 (iblk1 V c 0 t) (iblk1 V c 1 t) j = target1 A B (((cfg1.win 2).blk t).view.emb j)
  refine payload1_eq_target A B (iblk1 V c 0 t) (iblk1 V c 1 t) j (((cfg1.win 2).blk t).view.emb j) ?_ (fun y => ?_) ?_
  · -- the block read of `A` and the block written are the same rows and columns of their arrays
    show V c (Pipeline.arrRef spec1 0) (((cfg1.win 0).blk t).view.emb j) = A (((cfg1.win 2).blk t).view.emb j)
    rw [hA]
    refine congrArg A (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  · -- the bias window's one block is the whole one-row array
    show V c (Pipeline.arrRef spec1 1) (((cfg1.win 1).blk t).view.emb y) = B y
    rw [hB]
    refine congrArg B (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  · -- the block written starts at column 0
    show win1_2.index t (1 : Fin 2) * 64 + 1 * (j 1).val = (j 1).val
    omega

/-- An index of the output array is in point `t`'s block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- The twenty blocks tile the rows: row `r` is in the block of point `r / 5000`, which is written back. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e00, e01, e10, e11, e20, e21⟩ := blockIndex1 t
  have ht : t.val = (i 0).val / 5000 := rfl
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- Whatever the buffers hold when the pass is entered (`V`), with `A` the array it reads and `B` the one-row bias,
    the output array ends at any `G` that is max(A + B, 0) entry by entry. -/
theorem biasRelu1 (V : (c : Dev nD) → (b : Ref sig .tc) → Buf (Elt Ideal) ((c : Thread nD τ).loc b)) (c : Dev nD)
    (A : FVec Ideal S100000x64 .f32) (B : FVec Ideal S1x64 .f32) (G : FVec Ideal S100000x64 .f32)
    (hA : V c (Pipeline.arrRef spec1 0) = A) (hB : V c (Pipeline.arrRef spec1 1) = B)
    (hG : ∀ i, G i = max (A i + B (biasAt1 i)) (Ideal.ofBits .f32 0x00000000#32)) :
    (dat1 (F := Ideal) V c).arrAt 2 cfg1.N = G := by
  obtain rfl : G = target1 A B := funext hG
  exact (dat1 (F := Ideal) V c).arrAt_eq_of_cover 2 (target1 A B) (fun t _ => flushed1_eq V c A B hA hB t) cover1

end Cert.KernelIdeal.Regions

end
-- ==== Proof.BiasRelu3.lean ====
/-
  The second bias-and-rectify pass: out(r, q) = max(A(r, q) + b₂(q), 0) on the 100000×64 array, as the tiled pass leaves
  it in its output array. Point t of the twenty reads rows 5000·t … 5000·t + 4999 of A and the one-row array B = b₂ (its
  single block at every point), broadcasts the row down the block, adds, takes the maximum with zero and writes the block
  of the same rows; the blocks tile the 100000 rows.
-/
import proofs.«100734_j452_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

/-- The entry of the one-row bias array under column `i 1`. -/
abbrev biasAt3 (i : S100000x64.Idx) : S1x64.Idx := fun a => match a with
  | ⟨0, _⟩ => ⟨0, Nat.one_pos⟩
  | ⟨1, _⟩ => ⟨(i 1).val, (i 1).isLt⟩

open Idealize.ShloMosaic.ValueIdx

/-- The two zero offsets of a whole-block access, spelt as the constant function. -/
theorem zeroOffsets3 : (![0, 0] : Fin 2 → Nat) = fun _ => 0 := funext fun a => by fin_cases a <;> rfl

/-- The block indices of the three windows at point `t`: the block read of `A` and the block written are block `t` of
    the rows and block 0 of the columns; the bias is its one block at every point. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The array the pass is to leave, as one function of `A` and the bias row. Its entry at row r, column q is
    the larger of zero and
    the entry of `A` plus the bias under column q. -/
abbrev target3 (A : FVec Ideal S100000x64 .f32) (B : FVec Ideal S1x64 .f32) : FVec Ideal S100000x64 .f32 := fun i =>
  max (
    A i + B (biasAt3 i)
  ) (Ideal.ofBits .f32 0x00000000#32)

/-- The body's payload at row `p`, column `q` of a block `x0` with the bias row `x1`: the two identity casts and the
    cast of the row drop out, the row broadcast down the block reads the row's entry under the same column. -/
theorem payload3_apply (x0 : FVec Ideal S5000x64 .f32) (x1 : FVec Ideal S1x64 .f32) (p : Fin 5000) (q : Fin 64) :
    k3_pay1 x0 x1 (ix2 p q) =
      max (
        x0 (ix2 p q) + x1 (ix2 (0 : Fin 1) q)
      ) (Ideal.ofBits .f32 0x00000000#32)
    := by
  unfold k3_pay1
  rw [maximumf_apply]
  rw [broadcast_apply]
  rw [addf_apply, shapeCast_self, shapeCast_self, shapeCast_self, broadcastTo_1b_ab_apply]
  rfl

/-- One entry of what a point writes, over a block `x0` and a row `x1`: where the block's entry `j` is `A`'s entry `i`,
    the row is `B`, and `j` and `i` are in the same column, the payload's entry `j` is the target's entry `i`. -/
theorem payload3_eq_target (A : FVec Ideal S100000x64 .f32) (B : FVec Ideal S1x64 .f32)
    (x0 : FVec Ideal S5000x64 .f32) (x1 : FVec Ideal S1x64 .f32) (j : S5000x64.Idx) (i : S100000x64.Idx)
    (h0 : x0 j = A i) (h1 : ∀ y, x1 y = B y) (hcol : (i 1).val = (j 1).val) :
    k3_pay1 x0 x1 j = target3 A B i := by
  obtain ⟨p, q, rfl⟩ : ∃ (p : Fin 5000) (q : Fin 64), j = ix2 p q := ⟨j 0, j 1, eq_ix2 j⟩
  have hb : (ix2 (0 : Fin 1) q : S1x64.Idx) = biasAt3 i := by
    funext a
    match a with
    | ⟨0, _⟩ => rfl
    | ⟨1, _⟩ => exact Fin.ext hcol.symm
  rw [payload3_apply, h0, h1, hb]

/-- WHAT POINT `t` WRITES BACK is block `t` of the target: rows 5000·t … 5000·t + 4999, every column. -/
theorem flushed3_eq (V : (c : Dev nD) → (b : Ref sig .tc) → Buf (Elt Ideal) ((c : Thread nD τ).loc b)) (c : Dev nD)
    (A : FVec Ideal S100000x64 .f32) (B : FVec Ideal S1x64 .f32)
    (hA : V c (Pipeline.arrRef spec3 0) = A) (hB : V c (Pipeline.arrRef spec3 1) = B) (t : Fin cfg3.N) :
    (dat3 (F := Ideal) V c).flushed 2 t = ((cfg3.win 2).blk t).view.read (Elt Ideal) (target3 A B) := by
  show (cfg3.win 2).cut (grid3.coords t) ((dat3 V c).after 2 t) = _
  rw [after3_2]
  unfold out3_2
  rw [View.canon_unit_zero zeroOffsets3]
  simp only [View.ld_unit_zero (S := S5000x64) zeroOffsets3, View.ld_unit_zero (S := S1x64) zeroOffsets3]
  obtain ⟨e00, e01, e10, e11, e20, e21⟩ := blockIndex3 t
  funext j
  show k3_pay1 (iblk3 V c 0 t) (iblk3 V c 1 t) j = target3 A B (((cfg3.win 2).blk t).view.emb j)
  refine payload3_eq_target A B (iblk3 V c 0 t) (iblk3 V c 1 t) j (((cfg3.win 2).blk t).view.emb j) ?_ (fun y => ?_) ?_
  · -- the block read of `A` and the block written are the same rows and columns of their arrays
    show V c (Pipeline.arrRef spec3 0) (((cfg3.win 0).blk t).view.emb j) = A (((cfg3.win 2).blk t).view.emb j)
    rw [hA]
    refine congrArg A (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · -- the bias window's one block is the whole one-row array
    show V c (Pipeline.arrRef spec3 1) (((cfg3.win 1).blk t).view.emb y) = B y
    rw [hB]
    refine congrArg B (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  · -- the block written starts at column 0
    show win3_2.index t (1 : Fin 2) * 64 + 1 * (j 1).val = (j 1).val
    omega

/-- An index of the output array is in point `t`'s block iff each coordinate is in the block's range on its axis. -/
theorem mem_block3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The twenty blocks tile the rows: row `r` is in the block of point `r / 5000`, which is written back. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e00, e01, e10, e11, e20, e21⟩ := blockIndex3 t
  have ht : t.val = (i 0).val / 5000 := rfl
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- Whatever the buffers hold when the pass is entered (`V`), with `A` the array it reads and `B` the one-row bias,
    the output array ends at any `G` that is max(A + B, 0) entry by entry. -/
theorem biasRelu3 (V : (c : Dev nD) → (b : Ref sig .tc) → Buf (Elt Ideal) ((c : Thread nD τ).loc b)) (c : Dev nD)
    (A : FVec Ideal S100000x64 .f32) (B : FVec Ideal S1x64 .f32) (G : FVec Ideal S100000x64 .f32)
    (hA : V c (Pipeline.arrRef spec3 0) = A) (hB : V c (Pipeline.arrRef spec3 1) = B)
    (hG : ∀ i, G i = max (A i + B (biasAt3 i)) (Ideal.ofBits .f32 0x00000000#32)) :
    (dat3 (F := Ideal) V c).arrAt 2 cfg3.N = G := by
  obtain rfl : G = target3 A B := funext hG
  exact (dat3 (F := Ideal) V c).arrAt_eq_of_cover 2 (target3 A B) (fun t _ => flushed3_eq V c A B hA hB t) cover3

end Cert.KernelIdeal.Regions

end
-- ==== Proof.Bias5.lean ====
/-
  The last bias pass: out(r, q) = A(r, q) + b₃(q) on the 100000×40 array, no maximum, as the tiled pass leaves it in its
  output array. Point t of the twenty reads rows 5000·t … 5000·t + 4999 of A and the one-row array B = b₃ (its single
  block at every point), broadcasts the row down the block, adds and writes the block of the same rows; the blocks tile
  the 100000 rows.
-/
import proofs.«100734_j452_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.SL.Sem
open Idealize.ShloMosaic.Pipeline (Dat Cfg Window)
open Cert.KernelIdeal Cert.KernelIdeal.Gen

/-- The entry of the one-row bias array under column `i 1`. -/
abbrev biasAt5 (i : S100000x40.Idx) : S1x40.Idx := fun a => match a with
  | ⟨0, _⟩ => ⟨0, Nat.one_pos⟩
  | ⟨1, _⟩ => ⟨(i 1).val, (i 1).isLt⟩

open Idealize.ShloMosaic.ValueIdx

/-- The two zero offsets of a whole-block access, spelt as the constant function. -/
theorem zeroOffsets5 : (![0, 0] : Fin 2 → Nat) = fun _ => 0 := funext fun a => by fin_cases a <;> rfl

/-- The block indices of the three windows at point `t`: the block read of `A` and the block written are block `t` of
    the rows and block 0 of the columns; the bias is its one block at every point. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The array the pass is to leave, as one function of `A` and the bias row. Its entry at row r, column q is
    the entry of `A` plus the bias under column q. -/
abbrev target5 (A : FVec Ideal S100000x40 .f32) (B : FVec Ideal S1x40 .f32) : FVec Ideal S100000x40 .f32 := fun i =>
    A i + B (biasAt5 i)

/-- The body's payload at row `p`, column `q` of a block `x0` with the bias row `x1`: the two identity casts and the
    cast of the row drop out, the row broadcast down the block reads the row's entry under the same column. -/
theorem payload5_apply (x0 : FVec Ideal S5000x40 .f32) (x1 : FVec Ideal S1x40 .f32) (p : Fin 5000) (q : Fin 40) :
    k5_pay1 x0 x1 (ix2 p q) =
        x0 (ix2 p q) + x1 (ix2 (0 : Fin 1) q)
    := by
  unfold k5_pay1
  rw [addf_apply, shapeCast_self, shapeCast_self, shapeCast_self, broadcastTo_1b_ab_apply]

/-- One entry of what a point writes, over a block `x0` and a row `x1`: where the block's entry `j` is `A`'s entry `i`,
    the row is `B`, and `j` and `i` are in the same column, the payload's entry `j` is the target's entry `i`. -/
theorem payload5_eq_target (A : FVec Ideal S100000x40 .f32) (B : FVec Ideal S1x40 .f32)
    (x0 : FVec Ideal S5000x40 .f32) (x1 : FVec Ideal S1x40 .f32) (j : S5000x40.Idx) (i : S100000x40.Idx)
    (h0 : x0 j = A i) (h1 : ∀ y, x1 y = B y) (hcol : (i 1).val = (j 1).val) :
    k5_pay1 x0 x1 j = target5 A B i := by
  obtain ⟨p, q, rfl⟩ : ∃ (p : Fin 5000) (q : Fin 40), j = ix2 p q := ⟨j 0, j 1, eq_ix2 j⟩
  have hb : (ix2 (0 : Fin 1) q : S1x40.Idx) = biasAt5 i := by
    funext a
    match a with
    | ⟨0, _⟩ => rfl
    | ⟨1, _⟩ => exact Fin.ext hcol.symm
  rw [payload5_apply, h0, h1, hb]

/-- WHAT POINT `t` WRITES BACK is block `t` of the target: rows 5000·t … 5000·t + 4999, every column. -/
theorem flushed5_eq (V : (c : Dev nD) → (b : Ref sig .tc) → Buf (Elt Ideal) ((c : Thread nD τ).loc b)) (c : Dev nD)
    (A : FVec Ideal S100000x40 .f32) (B : FVec Ideal S1x40 .f32)
    (hA : V c (Pipeline.arrRef spec5 0) = A) (hB : V c (Pipeline.arrRef spec5 1) = B) (t : Fin cfg5.N) :
    (dat5 (F := Ideal) V c).flushed 2 t = ((cfg5.win 2).blk t).view.read (Elt Ideal) (target5 A B) := by
  show (cfg5.win 2).cut (grid5.coords t) ((dat5 V c).after 2 t) = _
  rw [after5_2]
  unfold out5_2
  rw [View.canon_unit_zero zeroOffsets5]
  simp only [View.ld_unit_zero (S := S5000x40) zeroOffsets5, View.ld_unit_zero (S := S1x40) zeroOffsets5]
  obtain ⟨e00, e01, e10, e11, e20, e21⟩ := blockIndex5 t
  funext j
  show k5_pay1 (iblk5 V c 0 t) (iblk5 V c 1 t) j = target5 A B (((cfg5.win 2).blk t).view.emb j)
  refine payload5_eq_target A B (iblk5 V c 0 t) (iblk5 V c 1 t) j (((cfg5.win 2).blk t).view.emb j) ?_ (fun y => ?_) ?_
  · -- the block read of `A` and the block written are the same rows and columns of their arrays
    show V c (Pipeline.arrRef spec5 0) (((cfg5.win 0).blk t).view.emb j) = A (((cfg5.win 2).blk t).view.emb j)
    rw [hA]
    refine congrArg A (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 40 + 1 * (j 1).val = win5_2.index t (1 : Fin 2) * 40 + 1 * (j 1).val; omega
  · -- the bias window's one block is the whole one-row array
    show V c (Pipeline.arrRef spec5 1) (((cfg5.win 1).blk t).view.emb y) = B y
    rw [hB]
    refine congrArg B (funext fun a => Fin.ext ?_)
    match a with
    | ⟨0, _⟩ => show win5_1.index t (0 : Fin 2) * 1 + 1 * (y 0).val = (y 0).val; omega
    | ⟨1, _⟩ => show win5_1.index t (1 : Fin 2) * 40 + 1 * (y 1).val = (y 1).val; omega
  · -- the block written starts at column 0
    show win5_2.index t (1 : Fin 2) * 40 + 1 * (j 1).val = (j 1).val
    omega

/-- An index of the output array is in point `t`'s block iff each coordinate is in the block's range on its axis. -/
theorem mem_block5 (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v77).slice (win5_2.rect t)).set ↔ _
  rw [View.set_slice_whole, Rect.mem_set_unit]
  exact Iff.rfl

/-- The twenty blocks tile the rows: row `r` is in the block of point `r / 5000`, which is written back. -/
theorem cover5 (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : cfg5.N = 20 := N_5
  let t : Fin cfg5.N := ⟨(i 0).val / 5000, by rw [hN]; omega⟩
  obtain ⟨e00, e01, e10, e11, e20, e21⟩ := blockIndex5 t
  have ht : t.val = (i 0).val / 5000 := rfl
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 40 ≤ (i 1).val ∧ (i 1).val < win5_2.index t (1 : Fin 2) * 40 + 40; omega

/-- Whatever the buffers hold when the pass is entered (`V`), with `A` the array it reads and `B` the one-row bias,
    the output array ends at any `G` that is A + B entry by entry. -/
theorem bias5 (V : (c : Dev nD) → (b : Ref sig .tc) → Buf (Elt Ideal) ((c : Thread nD τ).loc b)) (c : Dev nD)
    (A : FVec Ideal S100000x40 .f32) (B : FVec Ideal S1x40 .f32) (G : FVec Ideal S100000x40 .f32)
    (hA : V c (Pipeline.arrRef spec5 0) = A) (hB : V c (Pipeline.arrRef spec5 1) = B)
    (hG : ∀ i, G i = A i + B (biasAt5 i)) :
    (dat5 (F := Ideal) V c).arrAt 2 cfg5.N = G := by
  obtain rfl : G = target5 A B := funext hG
  exact (dat5 (F := Ideal) V c).arrAt_eq_of_cover 2 (target5 A B) (fun t _ => flushed5_eq V c A B hA hB t) cover5

end Cert.KernelIdeal.Regions

end
-- ==== Proof.Layers.lean ====
/-
  The three layers, joined.
  At every boundary of the kernel's program the array just produced is the reference's stage of the same name:
  X·W₁, then its aggregation, then max(· + b₁, 0); the same again with W₂ and b₂; and once more with W₃ and b₃ without
  the maximum. A product region contributes that its output is the matrix product entry by entry, which is how the
  reference's contraction reads at an index; a bias region that its output is max(A + b, 0) (or A + b) entry by entry,
  the bias row being the reshape of the bias vector on the kernel's side and a broadcast of it on the reference's, the
  same entry either way; an aggregation stretch is the same chain of operations on both sides. So the array the
  kernel's program returns is the reference's result as a function of the eight arguments.
-/
import proofs.«100734_j452_1_alg».proof.Proof.RefRead
import proofs.«100734_j452_1_alg».proof.Proof.Before
import proofs.«100734_j452_1_alg».proof.Proof.Carry
import proofs.«100734_j452_1_alg».proof.Proof.Aggregate
import proofs.«100734_j452_1_alg».proof.Proof.Product0
import proofs.«100734_j452_1_alg».proof.Proof.Product2
import proofs.«100734_j452_1_alg».proof.Proof.Product4
import proofs.«100734_j452_1_alg».proof.Proof.BiasRelu1
import proofs.«100734_j452_1_alg».proof.Proof.BiasRelu3
import proofs.«100734_j452_1_alg».proof.Proof.Bias5
import Idealize.ShloMosaic.Lib.ValueLayout

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

/-! ## The bias row, either way it is laid out -/

/-- A bias vector reshaped to one row, read under column `q`, is the vector's entry `q`: the entry the reference reaches by
    broadcasting the vector to one row and that row down the columns. -/
theorem rowAt1 (b : (⟨S64, .f32⟩ : BufTy).Contents (Elt Ideal)) (i : S100000x64.Idx) :
    shapeCast S1x64 b shapeCasts_S64_S1x64 (Regions.biasAt1 i) = b (idx_main_v44 (idx_main_v45 i)) := by
  have e : Regions.biasAt1 i = ValueIdx.ix2 (0 : Fin 1) (i 1) := funext fun a => by
    match a with
    | ⟨0, _⟩ => rfl
    | ⟨1, _⟩ => rfl
  have e' : idx_main_v44 (idx_main_v45 i) = ValueIdx.ix1 (i 1) := funext fun a => by
    match a with
    | ⟨0, _⟩ => rfl
  rw [e, e']
  exact ValueIdx.shapeCast_a_1a_apply b shapeCasts_S64_S1x64 (0 : Fin 1) (i 1)

theorem rowAt3 (b : (⟨S64, .f32⟩ : BufTy).Contents (Elt Ideal)) (i : S100000x64.Idx) :
    shapeCast S1x64 b shapeCasts_S64_S1x64 (Regions.biasAt3 i) = b (idx_main_v62 (idx_main_v63 i)) := by
  have e : Regions.biasAt3 i = ValueIdx.ix2 (0 : Fin 1) (i 1) := funext fun a => by
    match a with
    | ⟨0, _⟩ => rfl
    | ⟨1, _⟩ => rfl
  have e' : idx_main_v62 (idx_main_v63 i) = ValueIdx.ix1 (i 1) := funext fun a => by
    match a with
    | ⟨0, _⟩ => rfl
  rw [e, e']
  exact ValueIdx.shapeCast_a_1a_apply b shapeCasts_S64_S1x64 (0 : Fin 1) (i 1)

theorem rowAt5 (b : (⟨S40, .f32⟩ : BufTy).Contents (Elt Ideal)) (i : S100000x40.Idx) :
    shapeCast S1x40 b shapeCasts_S40_S1x40 (Regions.biasAt5 i) = b (idx_main_v80 (idx_main_v81 i)) := by
  have e : Regions.biasAt5 i = ValueIdx.ix2 (0 : Fin 1) (i 1) := funext fun a => by
    match a with
    | ⟨0, _⟩ => rfl
    | ⟨1, _⟩ => rfl
  have e' : idx_main_v80 (idx_main_v81 i) = ValueIdx.ix1 (i 1) := funext fun a => by
    match a with
    | ⟨0, _⟩ => rfl
  rw [e, e']
  exact ValueIdx.shapeCast_a_1a_apply b shapeCasts_S40_S1x40 (0 : Fin 1) (i 1)

/-! ## Layer 1 -/

theorem transform1 : W4 m ρ c (Proc.devRef .tc main_v30) = val_main_v30 (F := Ideal) (m ((c.tc : Thread nD τ).loc main_arg0)) (m ((c.tc : Thread nD τ).loc main_arg2)) :=
  (W4_arr m ρ c 2).trans (Regions.product0 (V3 m ρ) c (m ((c.tc : Thread nD τ).loc main_arg0)) (m ((c.tc : Thread nD τ).loc main_arg2)) _ (features_before m ρ c) (weight1_before m ρ c)
    (fun i => val_main_v30_apply (m ((c.tc : Thread nD τ).loc main_arg0)) (m ((c.tc : Thread nD τ).loc main_arg2)) i))

theorem sum1 : W5 m ρ c (Proc.devRef .tc main_v43) = val_main_v43 (F := Ideal) (m ((c.tc : Thread nD τ).loc main_arg0)) (edges m c) (m ((c.tc : Thread nD τ).loc main_arg2)) :=
  aggregate1 m ρ c ((src_at4 m ρ c).trans (src_before m ρ c)) ((dst_at4 m ρ c).trans (dst_before m ρ c))
    ((norm_at4 m ρ c).trans (norm_before m ρ c)) (transform1 m ρ c)

theorem hidden1 : W6 m ρ c (Proc.devRef .tc main_v45) = val_main_v47 (F := Ideal) (m ((c.tc : Thread nD τ).loc main_arg0)) (edges m c) (m ((c.tc : Thread nD τ).loc main_arg2)) (m ((c.tc : Thread nD τ).loc main_arg3)) :=
  (W6_arr m ρ c 2).trans (Regions.biasRelu1 (V5 m ρ) c (val_main_v43 (F := Ideal) (m ((c.tc : Thread nD τ).loc main_arg0)) (edges m c) (m ((c.tc : Thread nD τ).loc main_arg2))) (shapeCast S1x64 (m ((c.tc : Thread nD τ).loc main_arg3)) shapeCasts_S64_S1x64) _
    (sum1 m ρ c) ((biasRow1 m ρ c).trans (congrArg (fun z => shapeCast S1x64 z shapeCasts_S64_S1x64) (bias1_at4 m ρ c)))
    (fun i => by
      rw [val_main_v47_apply, val_main_v46_apply, val_main_v45_apply, val_main_v44_apply, val_main_call1_v0_apply, val_main_call1_cst_apply, rowAt1]
      rfl))

/-! ## Layer 2 -/

theorem transform2 : W7 m ρ c (Proc.devRef .tc main_v46) = val_main_v48 (F := Ideal) (m ((c.tc : Thread nD τ).loc main_arg0)) (edges m c) (m ((c.tc : Thread nD τ).loc main_arg2)) (m ((c.tc : Thread nD τ).loc main_arg3)) (m ((c.tc : Thread nD τ).loc main_arg4)) :=
  (W7_arr m ρ c 2).trans (Regions.product2 (V6 m ρ) c (val_main_v47 (F := Ideal) (m ((c.tc : Thread nD τ).loc main_arg0)) (edges m c) (m ((c.tc : Thread nD τ).loc main_arg2)) (m ((c.tc : Thread nD τ).loc main_arg3))) (m ((c.tc : Thread nD τ).loc main_arg4)) _ (hidden1 m ρ c) (weight2_at6 m ρ c)
    (fun i => val_main_v48_apply (m ((c.tc : Thread nD τ).loc main_arg0)) (edges m c) (m ((c.tc : Thread nD τ).loc main_arg2)) (m ((c.tc : Thread nD τ).loc main_arg3)) (m ((c.tc : Thread nD τ).loc main_arg4)) i))

theorem sum2 : W8 m ρ c (Proc.devRef .tc main_v59) = val_main_v61 (F := Ideal) (m ((c.tc : Thread nD τ).loc main_arg0)) (edges m c) (m ((c.tc : Thread nD τ).loc main_arg2)) (m ((c.tc : Thread nD τ).loc main_arg3)) (m ((c.tc : Thread nD τ).loc main_arg4)) :=
  aggregate2 m ρ c ((src_at7 m ρ c).trans (src_before m ρ c)) ((dst_at7 m ρ c).trans (dst_before m ρ c))
    ((norm_at7 m ρ c).trans (norm_before m ρ c)) (transform2 m ρ c)

theorem hidden2 : W9 m ρ c (Proc.devRef .tc main_v61) = val_main_v65 (F := Ideal) (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans (Regions.biasRelu3 (V8 m ρ) c (val_main_v61 (F := Ideal) (m ((c.tc : Thread nD τ).loc main_arg0)) (edges m c) (m ((c.tc : Thread nD τ).loc main_arg2)) (m ((c.tc : Thread nD τ).loc main_arg3)) (m ((c.tc : Thread nD τ).loc main_arg4))) (shapeCast S1x64 (m ((c.tc : Thread nD τ).loc main_arg5)) shapeCasts_S64_S1x64) _
    (sum2 m ρ c) ((biasRow2 m ρ c).trans (congrArg (fun z => shapeCast S1x64 z shapeCasts_S64_S1x64) (bias2_at7 m ρ c)))
    (fun i => by
      rw [val_main_v65_apply, val_main_v64_apply, val_main_v63_apply, val_main_v62_apply, val_main_call2_v0_apply, val_main_call2_cst_apply, rowAt3]
      rfl))

/-! ## Layer 3 -/

theorem transform3 : W10 m ρ c (Proc.devRef .tc main_v62) = val_main_v66 (F := Ideal) (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W10_arr m ρ c 2).trans (Regions.product4 (V9 m ρ) c (val_main_v65 (F := Ideal) (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) _ (hidden2 m ρ c) (weight3_at9 m ρ c)
    (fun i => val_main_v66_apply (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i))

theorem sum3 : W11 m ρ c (Proc.devRef .tc main_v75) = val_main_v79 (F := Ideal) (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  aggregate3 m ρ c ((src_at10 m ρ c).trans (src_before m ρ c)) ((dst_at10 m ρ c).trans (dst_before m ρ c))
    ((norm_at10 m ρ c).trans (norm_before m ρ c)) (transform3 m ρ c)

/-- What the kernel's program returns: the reference's result, as a function of the eight arguments. -/
theorem result : W12 m ρ c (Proc.devRef .tc main_v77) = val_main_v82 (F := Ideal) (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W12_arr m ρ c 2).trans (Regions.bias5 (V11 m ρ) c (val_main_v79 (F := Ideal) (m ((c.tc : Thread nD τ).loc main_arg0)) (edges m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (shapeCast S1x40 (m ((c.tc : Thread nD τ).loc main_arg7)) shapeCasts_S40_S1x40) _
    (sum3 m ρ c) ((biasRow3 m ρ c).trans (congrArg (fun z => shapeCast S1x40 z shapeCasts_S40_S1x40) (bias3_at10 m ρ c)))
    (fun i => by
      rw [val_main_v82_apply, val_main_v81_apply, val_main_v80_apply, rowAt5]
      rfl))

end Cert.Bridge

end
-- ==== Proof.lean ====
/-
  A three-layer graph convolution (features 128 → 64 → 64 → 40 over 100000 nodes and 1600000 edges plus self-loops),
  its dense steps as six tiled kernels, against the same network written with plain array operations.
  Both programs compute the symmetric normalisation D^(-1/2) (A + I) D^(-1/2) once on the host and, per layer,
  out = Σ over edges e into a node of norm(e) · (h·W)[src e], plus the bias, rectified except in the last layer. The
  kernels do the products h·W (operands rounded to bf16, accumulated from zero) and the bias-and-rectify passes, twenty
  row blocks of 5000 each; the gathers and scatter-adds between them are the same host operations in both programs.
  On the extended reals the rounding is the identity and a product accumulated from zero is the contraction's plain
  sum, so layer by layer the array each kernel leaves is the reference's array of that step (Proof/Layers.lean), and no
  finiteness of the inputs is used anywhere. The frames of the two kernel programs are the generated ones; the
  reference's frame is its run with the value dropped; the ideal pass rewrote nothing.
-/
import proofs.«100734_j452_1_alg».proof.Defs
import proofs.«100734_j452_1_alg».proof.Proof.Gen.Kernel
import proofs.«100734_j452_1_alg».proof.Proof.Gen.Kernel.Frame
import proofs.«100734_j452_1_alg».proof.Proof.Gen.KernelIdeal
import proofs.«100734_j452_1_alg».proof.Proof.Gen.KernelIdeal.Frame
import proofs.«100734_j452_1_alg».proof.Proof.Gen.ReferenceIdeal
import proofs.«100734_j452_1_alg».proof.Proof.Gen.Pre_finite_inputs
import proofs.«100734_j452_1_alg».proof.Proof.RunNamed
import proofs.«100734_j452_1_alg».proof.Proof.RefRun
import proofs.«100734_j452_1_alg».proof.Proof.RefRead
import proofs.«100734_j452_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its value dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result at the reference's composed stage of the eight arguments: the kernel's by the three
    layers joined, the reference's by its own run, the arguments' agreement carrying one memory's arrays to the other's. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Bridge.result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v82_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
